-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x32x32x32x384 : Shape := ⟨5, ![4, 32, 32, 32, 384]⟩
abbrev S3072 : Shape := ⟨1, ![3072]⟩
abbrev S768x3072 : Shape := ⟨2, ![768, 3072]⟩
abbrev S_ : Shape := ⟨0, ![]⟩

class Facts : Prop where
  bcast_S_S4x32x32x32x384 : S_.BroadcastsInDim S4x32x32x32x384 (![] : Fin 0 → Fin S4x32x32x32x384.rank)
  reducesTo_S4x32x32x32x384_S_d0_1_2_3_4 : S4x32x32x32x384.ReducesTo [0, 1, 2, 3, 4] S_
  h_S_ : 0 < S_.numel
  bcast_S_S3072 : S_.BroadcastsInDim S3072 (![] : Fin 0 → Fin S3072.rank)
  reducesTo_S3072_S_d0 : S3072.ReducesTo [0] S_
  bcast_S_S768x3072 : S_.BroadcastsInDim S768x3072 (![] : Fin 0 → Fin S768x3072.rank)
  reducesTo_S768x3072_S_d0_1 : S768x3072.ReducesTo [0, 1] S_

variable [Facts]

def fn_part1 {F : FTy → Type} [FloatOps F] (main_v13 : IVec S_ 1) (main_v16 : IVec S768x3072 1) : IVec S_ 1 :=
  let main_c_5 : IVec S_ 1 := constantI S_ 1 1#1
  let main_v17 : IVec S_ 1 := (fun x v => Host.reduce IntOp.andi x v reducesTo_S768x3072_S_d0_1 h_S_) main_v16 main_c_5
  let main_v18 : IVec S_ 1 := andi main_v13 main_v17
  main_v18

def fn {F : FTy → Type} [FloatOps F] (main_arg0 : FVec F S4x32x32x32x384 .f32) (main_arg1 : FVec F S3072 .f32) (main_arg2 : FVec F S3072 .f32) (main_arg3 : FVec F S768x3072 .f32) : IVec S_ 1 :=
  let main_v0 : FVec F S4x32x32x32x384 .f32 := Host.absf main_arg0
  let main_cst : FVec F S_ .f32 := constant S_ .f32 0x7F800000#32
  let main_v1 : FVec F S4x32x32x32x384 .f32 := broadcastInDim S4x32x32x32x384 ![] bcast_S_S4x32x32x32x384 main_cst
  let main_v2 : IVec S4x32x32x32x384 1 := cmpf .olt main_v0 main_v1
  let main_c : IVec S_ 1 := constantI S_ 1 1#1
  let main_v3 : IVec S_ 1 := (fun x v => Host.reduce IntOp.andi x v reducesTo_S4x32x32x32x384_S_d0_1_2_3_4 h_S_) main_v2 main_c
  let main_v4 : FVec F S3072 .f32 := Host.absf main_arg1
  let main_cst_0 : FVec F S_ .f32 := constant S_ .f32 0x7F800000#32
  let main_v5 : FVec F S3072 .f32 := broadcastInDim S3072 ![] bcast_S_S3072 main_cst_0
  let main_v6 : IVec S3072 1 := cmpf .olt main_v4 main_v5
  let main_c_1 : IVec S_ 1 := constantI S_ 1 1#1
  let main_v7 : IVec S_ 1 := (fun x v => Host.reduce IntOp.andi x v reducesTo_S3072_S_d0 h_S_) main_v6 main_c_1
  let main_v8 : IVec S_ 1 := andi main_v3 main_v7
  let main_v9 : FVec F S3072 .f32 := Host.absf main_arg2
  let main_cst_2 : FVec F S_ .f32 := constant S_ .f32 0x7F800000#32
  let main_v10 : FVec F S3072 .f32 := broadcastInDim S3072 ![] bcast_S_S3072 main_cst_2
  let main_v11 : IVec S3072 1 := cmpf .olt main_v9 main_v10
  let main_c_3 : IVec S_ 1 := constantI S_ 1 1#1
  let main_v12 : IVec S_ 1 := (fun x v => Host.reduce IntOp.andi x v reducesTo_S3072_S_d0 h_S_) main_v11 main_c_3
  let main_v13 : IVec S_ 1 := andi main_v8 main_v12
  let main_v14 : FVec F S768x3072 .f32 := Host.absf main_arg3
  let main_cst_4 : FVec F S_ .f32 := constant S_ .f32 0x7F800000#32
  let main_v15 : FVec F S768x3072 .f32 := broadcastInDim S768x3072 ![] bcast_S_S768x3072 main_cst_4
  let main_v16 : IVec S768x3072 1 := cmpf .olt main_v14 main_v15
  fn_part1 (F := F) main_v13 main_v16
-- ==== Kernel.lean ====
abbrev S4x32x32x32x384 : Shape := ⟨5, ![4, 32, 32, 32, 384]⟩
abbrev S3072 : Shape := ⟨1, ![3072]⟩
abbrev S768x3072 : Shape := ⟨2, ![768, 3072]⟩
abbrev S4x16x2x16x2x16x2x384 : Shape := ⟨8, ![4, 16, 2, 16, 2, 16, 2, 384]⟩
abbrev S4x16x16x16x2x2x2x384 : Shape := ⟨8, ![4, 16, 16, 16, 2, 2, 2, 384]⟩
abbrev S4x16x16x16x3072 : Shape := ⟨5, ![4, 16, 16, 16, 3072]⟩
abbrev S16384x3072 : Shape := ⟨2, ![16384, 3072]⟩
abbrev S1x3072 : Shape := ⟨2, ![1, 3072]⟩
abbrev S3072x768 : Shape := ⟨2, ![3072, 768]⟩
abbrev S16384x768 : Shape := ⟨2, ![16384, 768]⟩
abbrev S512x3072 : Shape := ⟨2, ![512, 3072]⟩
abbrev S512x768 : Shape := ⟨2, ![512, 768]⟩
abbrev S512 : Shape := ⟨1, ![512]⟩
abbrev S512x1 : Shape := ⟨2, ![512, 1]⟩
abbrev S4x16x16x16x768 : Shape := ⟨5, ![4, 16, 16, 16, 768]⟩

abbrev nBuf : Space → Nat
  | .hbm => 14
  | .vmem => 7
  | .smem => 0
  | _ => 0

abbrev bufTy : (tb : Table) → Fin (tcTables nBuf tb) → BufTy
  | .hbm, ⟨0, _⟩ => ⟨S4x32x32x32x384, .f32⟩
  | .hbm, ⟨1, _⟩ => ⟨S3072, .f32⟩
  | .hbm, ⟨2, _⟩ => ⟨S3072, .f32⟩
  | .hbm, ⟨3, _⟩ => ⟨S768x3072, .f32⟩
  | .hbm, ⟨4, _⟩ => ⟨S4x16x2x16x2x16x2x384, .f32⟩
  | .hbm, ⟨5, _⟩ => ⟨S4x16x16x16x2x2x2x384, .f32⟩
  | .hbm, ⟨6, _⟩ => ⟨S4x16x16x16x3072, .f32⟩
  | .hbm, ⟨7, _⟩ => ⟨S16384x3072, .f32⟩
  | .hbm, ⟨8, _⟩ => ⟨S1x3072, .f32⟩
  | .hbm, ⟨9, _⟩ => ⟨S1x3072, .f32⟩
  | .hbm, ⟨10, _⟩ => ⟨S3072x768, .f32⟩
  | .hbm, ⟨11, _⟩ => ⟨S3072x768, .bf16⟩
  | .hbm, ⟨12, _⟩ => ⟨S16384x768, .f32⟩
  | .hbm, ⟨13, _⟩ => ⟨S4x16x16x16x768, .f32⟩
  | .local _ .vmem, ⟨0, _⟩ => ⟨S512x3072, .f32⟩
  | .local _ .vmem, ⟨1, _⟩ => ⟨S512x3072, .f32⟩
  | .local _ .vmem, ⟨2, _⟩ => ⟨S1x3072, .f32⟩
  | .local _ .vmem, ⟨3, _⟩ => ⟨S1x3072, .f32⟩
  | .local _ .vmem, ⟨4, _⟩ => ⟨S3072x768, .bf16⟩
  | .local _ .vmem, ⟨5, _⟩ => ⟨S512x768, .f32⟩
  | .local _ .vmem, ⟨6, _⟩ => ⟨S512x768, .f32⟩
  | _, _ => ⟨S4x32x32x32x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3072x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S4x32x32x32x384_S4x16x2x16x2x16x2x384 : S4x32x32x32x384.ShapeCasts S4x16x2x16x2x16x2x384
  transposes_S4x16x2x16x2x16x2x384_S4x16x16x16x2x2x2x384_0_1_3_5_2_4_6_7 : S4x16x2x16x2x16x2x384.Transposes [0, 1, 3, 5, 2, 4, 6, 7] S4x16x16x16x2x2x2x384
  shapeCasts_S4x16x16x16x2x2x2x384_S4x16x16x16x3072 : S4x16x16x16x2x2x2x384.ShapeCasts S4x16x16x16x3072
  shapeCasts_S4x16x16x16x3072_S16384x3072 : S4x16x16x16x3072.ShapeCasts S16384x3072
  shapeCasts_S3072_S1x3072 : S3072.ShapeCasts S1x3072
  transposes_S768x3072_S3072x768_1_0 : S768x3072.Transposes [1, 0] S3072x768
  bitsLt_bf16_f32 : FTy.bits .bf16 < FTy.bits .f32
  inb_S512x3072_S512x3072_0_0 : ∀ a, (![0, 0] : Fin 2 → Nat) a + S512x3072.size a ≤ S512x3072.size a
  h_S512x3072 : 0 < S512x3072.numel
  shapeCasts_S512x3072_S512x3072 : S512x3072.ShapeCasts S512x3072
  reduces_S512x3072_S512 : S512x3072.Reduces [1] S512
  shapeCasts_S512_S512x1 : S512.ShapeCasts S512x1
  broadcasts_S512x1_S512x3072 : S512x1.Broadcasts S512x3072
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S512x3072 : S1x3072.Broadcasts S512x3072
  inb_S3072x768_S3072x768_0_0 : ∀ a, (![0, 0] : Fin 2 → Nat) a + S3072x768.size a ≤ S3072x768.size a
  h_S3072x768 : 0 < S3072x768.numel
  shapeCasts_S3072x768_S3072x768 : S3072x768.ShapeCasts S3072x768
  inb_S512x768_S512x768_0_0 : ∀ a, (![0, 0] : Fin 2 → Nat) a + S512x768.size a ≤ S512x768.size a
  h_S512x768 : 0 < S512x768.numel
  shapeCasts_S16384x768_S4x16x16x16x768 : S16384x768.ShapeCasts S4x16x16x16x768
  dot_S512x3072_S3072x768_S512x768_1_0_0_1_n_n_wf : DotDims.WF S512x3072 S3072x768 S512x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x3072.size a ≤ S16384x3072.size a
  hwx0_0 : ∀ i : grid0.Coords, EltTy.bits .f32 = 32 ∨ (Rect.block (s := S16384x3072) S512x3072.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x3072.size a ≤ S1x3072.size a
  hwx0_1 : ∀ i : grid0.Coords, EltTy.bits .f32 = 32 ∨ (Rect.block (s := S1x3072) S1x3072.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x3072.size a ≤ S1x3072.size a
  hwx0_2 : ∀ i : grid0.Coords, EltTy.bits .f32 = 32 ∨ (Rect.block (s := S1x3072) S1x3072.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3072x768.size a ≤ S3072x768.size a
  hwx0_3 : ∀ i : grid0.Coords, EltTy.bits .bf16 = 32 ∨ (Rect.block (s := S3072x768) S3072x768.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x768.size a ≤ S16384x768.size a
  hwx0_4 : ∀ i : grid0.Coords, EltTy.bits .f32 = 32 ∨ (Rect.block (s := S16384x768) S512x768.size (cc0_transform_4 i) (hinb0_4 i)).WholeWords (EltTy.packing .f32)

variable [Facts₀]

def dot_S512x3072_S3072x768_S512x768_1_0_0_1_n_n : DotDims S512x3072 S3072x768 S512x768 where
  lhsContracting := [1]
  rhsContracting := [0]
  lhsNonContracting := [0]
  rhsNonContracting := [1]
  lhsBatch := []
  rhsBatch := []
  wf := dot_S512x3072_S3072x768_S512x768_1_0_0_1_n_n_wf

abbrev win0_0 : Pipeline.Window sig grid0 :=
  Pipeline.Window.ofSpec (Memref.whole main_v3) S512x3072.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S3072x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S512x768.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x32x32x32x384 : Shape := ⟨5, ![4, 32, 32, 32, 384]⟩
abbrev S3072 : Shape := ⟨1, ![3072]⟩
abbrev S768x3072 : Shape := ⟨2, ![768, 3072]⟩
abbrev S4x16x2x16x2x16x2x384 : Shape := ⟨8, ![4, 16, 2, 16, 2, 16, 2, 384]⟩
abbrev S4x16x16x16x2x2x2x384 : Shape := ⟨8, ![4, 16, 16, 16, 2, 2, 2, 384]⟩
abbrev S4x16x16x16x3072 : Shape := ⟨5, ![4, 16, 16, 16, 3072]⟩
abbrev S_ : Shape := ⟨0, ![]⟩
abbrev S4x16x16x16 : Shape := ⟨4, ![4, 16, 16, 16]⟩
abbrev S4x16x16x16x1 : Shape := ⟨5, ![4, 16, 16, 16, 1]⟩
abbrev S1x1x1x1x3072 : Shape := ⟨5, ![1, 1, 1, 1, 3072]⟩
abbrev S4x16x16x16x768 : Shape := ⟨5, ![4, 16, 16, 16, 768]⟩

abbrev nBuf : Space → Nat
  | .hbm => 37
  | .vmem => 0
  | .smem => 0
  | _ => 0

abbrev bufTy : (tb : Table) → Fin (tcTables nBuf tb) → BufTy
  | .hbm, ⟨0, _⟩ => ⟨S4x32x32x32x384, .f32⟩
  | .hbm, ⟨1, _⟩ => ⟨S3072, .f32⟩
  | .hbm, ⟨2, _⟩ => ⟨S3072, .f32⟩
  | .hbm, ⟨3, _⟩ => ⟨S768x3072, .f32⟩
  | .hbm, ⟨4, _⟩ => ⟨S4x16x2x16x2x16x2x384, .f32⟩
  | .hbm, ⟨5, _⟩ => ⟨S4x16x16x16x2x2x2x384, .f32⟩
  | .hbm, ⟨6, _⟩ => ⟨S4x16x16x16x3072, .f32⟩
  | .hbm, ⟨7, _⟩ => ⟨S_, .f32⟩
  | .hbm, ⟨8, _⟩ => ⟨S4x16x16x16, .f32⟩
  | .hbm, ⟨9, _⟩ => ⟨S4x16x16x16x1, .f32⟩
  | .hbm, ⟨10, _⟩ => ⟨S_, .f32⟩
  | .hbm, ⟨11, _⟩ => ⟨S4x16x16x16x1, .f32⟩
  | .hbm, ⟨12, _⟩ => ⟨S4x16x16x16x1, .f32⟩
  | .hbm, ⟨13, _⟩ => ⟨S4x16x16x16x3072, .f32⟩
  | .hbm, ⟨14, _⟩ => ⟨S4x16x16x16x3072, .f32⟩
  | .hbm, ⟨15, _⟩ => ⟨S4x16x16x16x3072, .f32⟩
  | .hbm, ⟨16, _⟩ => ⟨S_, .f32⟩
  | .hbm, ⟨17, _⟩ => ⟨S4x16x16x16, .f32⟩
  | .hbm, ⟨18, _⟩ => ⟨S4x16x16x16x1, .f32⟩
  | .hbm, ⟨19, _⟩ => ⟨S_, .f32⟩
  | .hbm, ⟨20, _⟩ => ⟨S4x16x16x16x1, .f32⟩
  | .hbm, ⟨21, _⟩ => ⟨S4x16x16x16x1, .f32⟩
  | .hbm, ⟨22, _⟩ => ⟨S4x16x16x16x3072, .f32⟩
  | .hbm, ⟨23, _⟩ => ⟨S4x16x16x16x3072, .f32⟩
  | .hbm, ⟨24, _⟩ => ⟨S_, .f32⟩
  | .hbm, ⟨25, _⟩ => ⟨S4x16x16x16x1, .f32⟩
  | .hbm, ⟨26, _⟩ => ⟨S4x16x16x16x1, .f32⟩
  | .hbm, ⟨27, _⟩ => ⟨S4x16x16x16x1, .f32⟩
  | .hbm, ⟨28, _⟩ => ⟨S4x16x16x16x3072, .f32⟩
  | .hbm, ⟨29, _⟩ => ⟨S4x16x16x16x3072, .f32⟩
  | .hbm, ⟨30, _⟩ => ⟨S1x1x1x1x3072, .f32⟩
  | .hbm, ⟨31, _⟩ => ⟨S4x16x16x16x3072, .f32⟩
  | .hbm, ⟨32, _⟩ => ⟨S4x16x16x16x3072, .f32⟩
  | .hbm, ⟨33, _⟩ => ⟨S1x1x1x1x3072, .f32⟩
  | .hbm, ⟨34, _⟩ => ⟨S4x16x16x16x3072, .f32⟩
  | .hbm, ⟨35, _⟩ => ⟨S4x16x16x16x3072, .f32⟩
  | .hbm, ⟨36, _⟩ => ⟨S4x16x16x16x768, .f32⟩
  | _, _ => ⟨S4x32x32x32x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩

abbrev nD : Nat := 1
abbrev τ : Topo := Topo.v7x

variable {F : FTy → Type} [FloatOps F]

class Facts₀ : Prop where
  shapeCasts_S4x32x32x32x384_S4x16x2x16x2x16x2x384 : S4x32x32x32x384.ShapeCasts S4x16x2x16x2x16x2x384
  transposes_S4x16x2x16x2x16x2x384_S4x16x16x16x2x2x2x384_0_1_3_5_2_4_6_7 : S4x16x2x16x2x16x2x384.Transposes [0, 1, 3, 5, 2, 4, 6, 7] S4x16x16x16x2x2x2x384
  shapeCasts_S4x16x16x16x2x2x2x384_S4x16x16x16x3072 : S4x16x16x16x2x2x2x384.ShapeCasts S4x16x16x16x3072
  reducesTo_S4x16x16x16x3072_S4x16x16x16_d4 : S4x16x16x16x3072.ReducesTo [4] S4x16x16x16
  h_S_ : 0 < S_.numel
  bcast_S4x16x16x16_S4x16x16x16x1_0_1_2_3 : S4x16x16x16.BroadcastsInDim S4x16x16x16x1 (![0, 1, 2, 3] : Fin 4 → Fin S4x16x16x16x1.rank)
  bcast_S_S4x16x16x16x1 : S_.BroadcastsInDim S4x16x16x16x1 (![] : Fin 0 → Fin S4x16x16x16x1.rank)
  bcast_S4x16x16x16x1_S4x16x16x16x3072_0_1_2_3_4 : S4x16x16x16x1.BroadcastsInDim S4x16x16x16x3072 (![0, 1, 2, 3, 4] : Fin 5 → Fin S4x16x16x16x3072.rank)
  bcast_S3072_S1x1x1x1x3072_4 : S3072.BroadcastsInDim S1x1x1x1x3072 (![4] : Fin 1 → Fin S1x1x1x1x3072.rank)
  bcast_S1x1x1x1x3072_S4x16x16x16x3072_0_1_2_3_4 : S1x1x1x1x3072.BroadcastsInDim S4x16x16x16x3072 (![0, 1, 2, 3, 4] : Fin 5 → Fin S4x16x16x16x3072.rank)
  dot_S4x16x16x16x3072_S768x3072_S4x16x16x16x768_4_1_0123_0_n_n_wf : DotDims.WF S4x16x16x16x3072 S768x3072 S4x16x16x16x768 [4] [1] [0, 1, 2, 3] [0] [] []

variable [Facts₀]

def dot_S4x16x16x16x3072_S768x3072_S4x16x16x16x768_4_1_0123_0_n_n : DotDims S4x16x16x16x3072 S768x3072 S4x16x16x16x768 where
  lhsContracting := [4]
  rhsContracting := [1]
  lhsNonContracting := [0, 1, 2, 3]
  rhsNonContracting := [0]
  lhsBatch := []
  rhsBatch := []
  wf := dot_S4x16x16x16x3072_S768x3072_S4x16x16x16x768_4_1_0123_0_n_n_wf

class Facts : Prop extends Facts₀ where

variable [Facts]
-- ==== Proof.RowSpec.lean ====
/-
  One row of the computation both programs perform, as a function on the extended reals.

  A row `x` of 3072 entries is centred on its mean, scaled by the reciprocal square root of its variance plus a small
  constant, multiplied entrywise by a gain row `g` and shifted by a bias row `b`; the result is then paired with a weight
  row `w` by the sum of the 3072 products. Mean and variance are quotients of a sum by the float 3072; the small constant
  is the float nearest 1e-5. Both constants are kept as their binary words, which the two programs share.
-/
import Idealize.ShloMosaic.PureOps.Ideal

noncomputable section

open scoped BigOperators

namespace Cert.RowSpec

open Idealize.ShloMosaic

/-- The divisor of both averages: the float 3072. -/
def width : EReal := Ideal.ofBits .f32 0x45400000#32

/-- The constant added to the variance before the reciprocal square root. -/
def eps : EReal := Ideal.ofBits .f32 0x3727C5AC#32

/-- The mean of a row. -/
def mean (x : Fin 3072 → EReal) : EReal := Ideal.div (∑ k : Fin 3072, x k) width

/-- The variance of a row: the mean of the squared deviations from the row's mean. -/
def var (x : Fin 3072 → EReal) : EReal := Ideal.div (∑ k : Fin 3072, (x k - mean x) * (x k - mean x)) width

/-- The normalised row at column `k`: deviation times `(var + eps)^(-1/2)`, times the gain, plus the bias. -/
def normed (x g b : Fin 3072 → EReal) (k : Fin 3072) : EReal :=
  (x k - mean x) * Ideal.rsqrt (var x + eps) * g k + b k

/-- The normalised row paired with a weight row. -/
def proj (x g b w : Fin 3072 → EReal) : EReal := ∑ k : Fin 3072, normed x g b k * w k

end Cert.RowSpec

end
-- ==== Proof.LibKeepdims.lean ====
/-
  Column layouts of a keepdims reduction, read at an index: a length-a vector recast as an [a, 1] column, and an [a, 1]
  column broadcast along the rows of an [a, b] array. (The row forms, [a] → [1, a] and [1, b] → [a, b], are the library's.)
-/
import Idealize.ShloMosaic.Lib.Pipeline.Value
import Idealize.ShloMosaic.Lib.ValueIdx

noncomputable section

namespace Idealize.ShloMosaic.Keepdims

open Idealize.ShloMosaic Idealize.ShloMosaic.ValueIdx

variable {α : Type}

/-- An `[a]` array cast to an `[a, 1]` column reads, at `(i, u)`, the operand at `i`, whatever the unit coordinate `u`:
    both positions are the i-th in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.Keepdims

end
-- ==== Proof.LibPlainDot.lean ====
/-
  A plain matrix product read at coordinates.

  `DotDims.plain M K N` are the dimension numbers of an `M×K` by `K×N` product: the left operand is contracted on its
  second axis, the right on its first, no batch axis. At the ideal instance such a product, whether it is the kernel's
  `tpu.matmul` into a zero accumulator or the host's `dot_general`, is at the output index `(r, c)` the sum over
  `k : Fin K` of `A (r, k) * B (k, c)` on the extended reals: the same sum in the same order on both sides, so the two
  agree wherever their operands do.
-/
import Idealize.ShloMosaic.Lib.ValueIdx
import Idealize.ShloMosaic.PureOps.Ideal.Laws

noncomputable section

open scoped BigOperators

namespace Idealize.ShloMosaic.PlainDot

open Idealize.ShloMosaic Idealize.ShloMosaic.ValueIdx

variable (M K N : Nat)

/-- The left operand's index at output index `j` and contraction position `k` is `(j 0, k)`. -/
theorem lhsIdx_eq (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ => rfl
  | ⟨1, _⟩ => exact ((DotDims.plain M K N).lhsIdx_val_of_single (cl := 1) rfl j _).trans hk

/-- The right operand's index at output index `j` and contraction position `k` is `(k, j 1)`. -/
theorem rhsIdx_eq (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ => exact ((DotDims.plain M K N).rhsIdx_val_of_single (cr := 0) rfl j _).trans hk
  | ⟨1, _⟩ => rfl

/-- The kernel's product into a zero accumulator, at an output index: the sum over the shared axis. -/
theorem matmul_zero_apply (prec : Option ContractPrecision) (A : FVec Ideal ⟨2, ![M, K]⟩ .f32) (B : FVec Ideal ⟨2, ![K, N]⟩ .f32)
    (j : (⟨2, ![M, N]⟩ : Shape).Idx) :
    FloatOps.matmul (DotDims.plain M K N) prec A B (constant ⟨2, ![M, N]⟩ .f32 0x00000000#32) j
      = ∑ k : Fin K, A (ix2 (j 0) k) * B (ix2 k (j 1)) := by
  rw [Ideal.matmul_constant_zero_apply, ← Equiv.sum_comp (contrEquiv1 (DotDims.plain M K N) K rfl rfl).symm]
  refine Finset.sum_congr rfl fun k _ => ?_
  rw [lhsIdx_eq, rhsIdx_eq]
  rfl

/-- The host's product, at an output index: the same sum. -/
theorem dotGeneral_apply (prec : Option ContractPrecision) (sched : HostSchedule) (A : FVec Ideal ⟨2, ![M, K]⟩ .f32)
    (B : FVec Ideal ⟨2, ![K, N]⟩ .f32) (j : (⟨2, ![M, N]⟩ : Shape).Idx) :
    FloatOps.dotGeneral (DotDims.plain M K N) prec sched A B j = ∑ k : Fin K, A (ix2 (j 0) k) * B (ix2 k (j 1)) := by
  rw [Ideal.dotGeneral_apply, ← Equiv.sum_comp (contrEquiv1 (DotDims.plain M K N) K rfl rfl).symm]
  refine Finset.sum_congr rfl fun k _ => ?_
  rw [lhsIdx_eq, rhsIdx_eq]
  rfl

end Idealize.ShloMosaic.PlainDot

end
-- ==== Proof.LibPlainDotAny.lean ====
/-
  A plain matrix product read at coordinates, at any two operand formats.

  At the ideal instance every float format is the extended reals, so an `M×K` by `K×N` product whose operands were
  first narrowed to another format (a kernel that feeds its matrix unit bf16) is still, at the output index `(r, c)`, the
  sum over `k : Fin K` of `A (r, k) * B (k, c)`: for the kernel's product into a zero accumulator and for the host's
  `dot_general` alike, over any dimension record equal to `DotDims.plain M K N`.
-/
import proofs.«153583_j43490838840019_1_alg».proof.Proof.LibPlainDot

noncomputable section

open scoped BigOperators

namespace Idealize.ShloMosaic.PlainDot

open Idealize.ShloMosaic Idealize.ShloMosaic.ValueIdx

variable (M K N : Nat)

/-- The kernel's product into a zero accumulator, at an output index, whatever the operands' formats. -/
theorem matmul_zero_apply_any {φ₁ φ₂ : FTy} (prec : Option ContractPrecision) (A : FVec Ideal ⟨2, ![M, K]⟩ φ₁)
    (B : FVec Ideal ⟨2, ![K, N]⟩ φ₂) (j : (⟨2, ![M, N]⟩ : Shape).Idx) :
    FloatOps.matmul (DotDims.plain M K N) prec A B (constant ⟨2, ![M, N]⟩ .f32 0x00000000#32) j
      = ∑ k : Fin K, A (ix2 (j 0) k) * B (ix2 k (j 1)) := by
  rw [Ideal.matmul_constant_zero_apply, ← Equiv.sum_comp (contrEquiv1 (DotDims.plain M K N) K rfl rfl).symm]
  refine Finset.sum_congr rfl fun k _ => ?_
  rw [lhsIdx_eq, rhsIdx_eq]
  rfl

/-- The host's product, at an output index, whatever the operands' formats. -/
theorem dotGeneral_apply_any {φ₁ φ₂ : FTy} (prec : Option ContractPrecision) (sched : HostSchedule)
    (A : FVec Ideal ⟨2, ![M, K]⟩ φ₁) (B : FVec Ideal ⟨2, ![K, N]⟩ φ₂) (j : (⟨2, ![M, N]⟩ : Shape).Idx) :
    FloatOps.dotGeneral (DotDims.plain M K N) prec sched A B j = ∑ k : Fin K, A (ix2 (j 0) k) * B (ix2 k (j 1)) := by
  rw [Ideal.dotGeneral_apply, ← Equiv.sum_comp (contrEquiv1 (DotDims.plain M K N) K rfl rfl).symm]
  refine Finset.sum_congr rfl fun k _ => ?_
  rw [lhsIdx_eq, rhsIdx_eq]
  rfl

end Idealize.ShloMosaic.PlainDot

end
-- ==== Proof.KernelRow.lean ====
/-
  The kernel body's stored value, entry by entry.

  The body reads a 512×3072 block of rows, a gain row, a bias row and a 3072×768 weight block, and stores the 512×768
  product of the normalised rows with the weights. At the ideal instance entry `(p, q)` of what it stores is the row
  function `RowSpec.proj` of row `p` of the block, the gain row, the bias row and column `q` of the weights: the lane
  sums are sums over the 3072 columns, the keepdims columns and their broadcasts read row `p`, the narrowing to bf16 is
  the identity, and the matrix product into a zero accumulator is the sum over the shared axis.
-/
import proofs.«153583_j43490838840019_1_alg».proof.Proof.Gen.KernelIdeal.Skeleton
import proofs.«153583_j43490838840019_1_alg».proof.Proof.RowSpec
import proofs.«153583_j43490838840019_1_alg».proof.Proof.LibKeepdims
import proofs.«153583_j43490838840019_1_alg».proof.Proof.LibPlainDotAny
import Idealize.ShloMosaic.Lib.ValueLayout
import Idealize.ShloMosaic.PureOps.Ideal.Laws

noncomputable section

open scoped BigOperators

namespace Cert.KernelIdeal.Row

open Cert.KernelIdeal Cert.KernelIdeal.Gen Idealize.ShloMosaic Idealize.ShloMosaic.ValueIdx

/-- A lane sum kept as a column: at row `p` it is the sum of the row's 3072 entries. -/
theorem rowsum_col (v : FVec Ideal S512x3072 .f32) (hφ : FTy.f32 = FTy.f32 ∨ FTy.f32 = FTy.bf16)
    (hacc : (0x00000000#32 : BitVec 32) = 0x00000000#32) (p : Fin 512) (u : Fin 1) :
    shapeCast S512x1 (multiReduction .add [1] S512 v 0x00000000#32 reduces_S512x3072_S512 hφ hacc)
        shapeCasts_S512_S512x1 (ix2 p u)
      = ∑ k : Fin 3072, v (ix2 p k) := by
  refine (Keepdims.shapeCast_a_a1_apply _ shapeCasts_S512_S512x1 p u).trans ?_
  refine (Ideal.multiReduction_add_single v 0x00000000#32 reduces_S512x3072_S512 hφ hacc (ix1 p)).trans ?_
  refine Finset.sum_congr rfl fun k _ => congrArg v ?_
  funext a
  apply Fin.ext
  match a with
  | ⟨0, _⟩ => rfl
  | ⟨1, _⟩ => rfl

/-- A column broadcast along the rows reads the column at the row. -/
theorem col_bcast (v : FVec Ideal S512x1 .f32) (p : Fin 512) (k : Fin 3072) :
    broadcastTo S512x3072 v broadcasts_S512x1_S512x3072 (ix2 p k) = v (ix2 p (0 : Fin 1)) :=
  Keepdims.broadcastTo_a1_ab_apply v broadcasts_S512x1_S512x3072 p k

/-- A single row broadcast down the rows reads the row at the column. -/
theorem row_bcast (v : FVec Ideal S1x3072 .f32) (p : Fin 512) (k : Fin 3072) :
    broadcastTo S512x3072 v broadcasts_S1x3072_S512x3072 (ix2 p k) = v (ix2 (0 : Fin 1) k) :=
  broadcastTo_1b_ab_apply v broadcasts_S1x3072_S512x3072 p k

/-- The reciprocal square root acts entry by entry. -/
theorem rsqrt_apply {s : Shape} {φ : FTy} (a : FVec Ideal s φ) (i : s.Idx) : rsqrt a i = Ideal.rsqrt (a i) := rfl

/-- The block product into a zero accumulator, at entry `(p, q)`: the sum over the 3072 shared positions. -/
theorem matmul_at (A : FVec Ideal S512x3072 .bf16) (B : FVec Ideal S3072x768 .bf16) (p : Fin 512) (q : Fin 768) :
    matmul dot_S512x3072_S3072x768_S512x768_1_0_0_1_n_n none A B (constant S512x768 .f32 0x00000000#32) (ix2 p q)
      = ∑ k : Fin 3072, A (ix2 p k) * B (ix2 k q) :=
  PlainDot.matmul_zero_apply_any 512 3072 768 none A B (ix2 p q)

/-- Entry `(p, q)` of what the body stores is the row function of row `p` of the block, the gain and bias rows, and
    column `q` of the weights. -/
theorem pay_apply (x0 : Vec Ideal S512x3072 .f32) (x1 x2 : Vec Ideal S1x3072 .f32) (x3 : Vec Ideal S3072x768 .bf16)
    (p : Fin 512) (q : Fin 768) :
    k0_pay1 (F := Ideal) x0 x1 x2 x3 (ix2 p q)
      = RowSpec.proj (fun k => x0 (ix2 p k)) (fun k => x1 (ix2 (0 : Fin 1) k)) (fun k => x2 (ix2 (0 : Fin 1) k))
          (fun k => x3 (ix2 k q)) := by
  unfold k0_pay1
  refine (matmul_at _ _ p q).trans ?_
  unfold RowSpec.proj
  refine Finset.sum_congr rfl fun k _ => ?_
  simp only [shapeCast_self, truncf_apply, addf_apply, mulf_apply, subf_apply, divf_apply, rsqrt_apply, broadcast_apply,
    col_bcast, row_bcast, Ideal.ofBits_def]
  rw [rowsum_col, rowsum_col]
  simp only [mulf_apply, subf_apply, divf_apply, broadcast_apply, col_bcast, Ideal.ofBits_def]
  rw [rowsum_col]
  rfl

end Cert.KernelIdeal.Row

end
-- ==== Proof.KernelValue.lean ====
/-
  What the kernel program leaves in its result, as one function of the arrays its region reads.

  The region's grid has 32 points; point `t` reads rows `512 t … 512 t + 511` of the 16384×3072 row array, the whole
  gain row, bias row and 3072×768 weight array, and writes rows `512 t … 512 t + 511` of the 16384×768 output. By the
  row lemma each written entry `(n, o)` is the row function of row `n` of the row array, the gain and bias rows, and
  column `o` of the weights, whichever point writes it; the 32 row blocks tile the output, so the output array after
  the run is that function everywhere. The host line after the region recasts it as a five-axis array.
-/
import proofs.«153583_j43490838840019_1_alg».proof.Proof.Gen.KernelIdeal.Frame
import proofs.«153583_j43490838840019_1_alg».proof.Proof.KernelRow
import Idealize.ShloMosaic.Lib.Pipeline.Value
import Idealize.ShloMosaic.Lib.StableHlo.Run

set_option maxRecDepth 16384

noncomputable section

open scoped BigOperators

open Idealize.ShloMosaic Idealize.ShloMosaic.TcCoe Idealize.SL.Sem
open Idealize.ShloMosaic.Pipeline (Dat)

namespace Cert.KernelIdeal.RowValue

open Cert.KernelIdeal Cert.KernelIdeal.Gen Idealize.ShloMosaic.ValueIdx

variable (m : (ℓ : Loc nD τ sig) → Buf (Elt Ideal) ℓ) (ρ : Dev nD → PrngReg)

theorem hz : (![0, 0] : Fin 2 → Nat) = fun _ => 0 := funext fun a => by fin_cases a <;> rfl

/-- The output array as one function of the row array, the gain row, the bias row and the weight array. -/
def G (X : FVec Ideal S16384x3072 .f32) (g b : FVec Ideal S1x3072 .f32) (w : FVec Ideal S3072x768 .bf16) :
    FVec Ideal S16384x768 .f32 := fun j =>
  RowSpec.proj (fun k => X (ix2 (j 0) k)) (fun k => g (ix2 (0 : Fin 1) k)) (fun k => b (ix2 (0 : Fin 1) k))
    (fun k => w (ix2 k (j 1)))

/-- The block index maps over the grid: the row array's and the output's blocks move with the point, the other
    three windows stay at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-! ## Each window's block at a point, read off arbitrary array contents -/

/-- Point `t`'s block of the row array is rows `512 t …` of it. -/
theorem read0_apply (t : Fin cfg0.N) (A : FVec Ideal S16384x3072 .f32) (p : Fin 512) (k : Fin 3072) (n : Fin 16384)
    (hn : n.val = t.val * 512 + p.val) :
    (((cfg0.win 0).blk t).view.read (Elt Ideal) A : Vec Ideal S512x3072 .f32) (ix2 p k) = A (ix2 n k) := by
  obtain ⟨e0, e1, -⟩ := idx_facts t
  rw [View.read_apply]
  show A _ = A _
  refine congrArg A (funext fun a => Fin.ext ?_)
  match a with
  | ⟨0, _⟩ => show win0_0.index t (0 : Fin 2) * 512 + 1 * p.val = n.val; rw [e0, hn]; omega
  | ⟨1, _⟩ => show win0_0.index t (1 : Fin 2) * 3072 + 1 * k.val = k.val; rw [e1]; omega

/-- Every point's block of the gain row is the whole row. -/
theorem read1_apply (t : Fin cfg0.N) (A : FVec Ideal S1x3072 .f32) (k : Fin 3072) :
    (((cfg0.win 1).blk t).view.read (Elt Ideal) A : Vec Ideal S1x3072 .f32) (ix2 (0 : Fin 1) k) = A (ix2 (0 : Fin 1) k) := by
  obtain ⟨-, -, e0, e1, -⟩ := idx_facts t
  rw [View.read_apply]
  show A _ = A _
  refine congrArg A (funext fun a => Fin.ext ?_)
  match a with
  | ⟨0, _⟩ => show win0_1.index t (0 : Fin 2) * 1 + 1 * 0 = 0; rw [e0]
  | ⟨1, _⟩ => show win0_1.index t (1 : Fin 2) * 3072 + 1 * k.val = k.val; rw [e1]; omega

/-- Every point's block of the bias row is the whole row. -/
theorem read2_apply (t : Fin cfg0.N) (A : FVec Ideal S1x3072 .f32) (k : Fin 3072) :
    (((cfg0.win 2).blk t).view.read (Elt Ideal) A : Vec Ideal S1x3072 .f32) (ix2 (0 : Fin 1) k) = A (ix2 (0 : Fin 1) k) := by
  obtain ⟨-, -, -, -, e0, e1, -⟩ := idx_facts t
  rw [View.read_apply]
  show A _ = A _
  refine congrArg A (funext fun a => Fin.ext ?_)
  match a with
  | ⟨0, _⟩ => show win0_2.index t (0 : Fin 2) * 1 + 1 * 0 = 0; rw [e0]
  | ⟨1, _⟩ => show win0_2.index t (1 : Fin 2) * 3072 + 1 * k.val = k.val; rw [e1]; omega

/-- Every point's block of the weight array is the whole array. -/
theorem read3_apply (t : Fin cfg0.N) (A : FVec Ideal S3072x768 .bf16) (k : Fin 3072) (q : Fin 768) :
    (((cfg0.win 3).blk t).view.read (Elt Ideal) A : Vec Ideal S3072x768 .bf16) (ix2 k q) = A (ix2 k q) := by
  obtain ⟨-, -, -, -, -, -, e0, e1, -⟩ := idx_facts t
  rw [View.read_apply]
  show A _ = A _
  refine congrArg A (funext fun a => Fin.ext ?_)
  match a with
  | ⟨0, _⟩ => show win0_3.index t (0 : Fin 2) * 3072 + 1 * k.val = k.val; rw [e0]; omega
  | ⟨1, _⟩ => show win0_3.index t (1 : Fin 2) * 768 + 1 * q.val = q.val; rw [e1]; omega

/-- Point `t`'s block of the output is rows `512 t …` of it. -/
theorem read4_apply (t : Fin cfg0.N) (A : FVec Ideal S16384x768 .f32) (p : Fin 512) (q : Fin 768) (n : Fin 16384)
    (hn : n.val = t.val * 512 + p.val) :
    (((cfg0.win 4).blk t).view.read (Elt Ideal) A : Vec Ideal S512x768 .f32) (ix2 p q) = A (ix2 n q) := by
  obtain ⟨-, -, -, -, -, -, -, -, e0, e1⟩ := idx_facts t
  rw [View.read_apply]
  show A _ = A _
  refine congrArg A (funext fun a => Fin.ext ?_)
  match a with
  | ⟨0, _⟩ => show win0_4.index t (0 : Fin 2) * 512 + 1 * p.val = n.val; rw [e0, hn]; omega
  | ⟨1, _⟩ => show win0_4.index t (1 : Fin 2) * 768 + 1 * q.val = q.val; rw [e1]; omega

/-! ## What a point writes back -/

/-- For any contents of the four arrays read, what point `t` writes back is block `t` of `G` of them: entry `(p, q)` of
    the body's stored value is the row function of the block's row `p`, which is row `512 t + p` of the row array. -/
theorem flushed_gen (t : Fin cfg0.N) (A0 : FVec Ideal S16384x3072 .f32) (A1 A2 : FVec Ideal S1x3072 .f32)
    (A3 : FVec Ideal S3072x768 .bf16) :
    (cfg0.win 4).cut (grid0.coords t)
        (out0_4 (((cfg0.win 0).blk t).view.read (Elt Ideal) A0) (((cfg0.win 1).blk t).view.read (Elt Ideal) A1)
          (((cfg0.win 2).blk t).view.read (Elt Ideal) A2) (((cfg0.win 3).blk t).view.read (Elt Ideal) A3))
      = ((cfg0.win 4).blk t).view.read (Elt Ideal) (G A0 A1 A2 A3) := by
  unfold out0_4
  rw [View.canon_unit_zero hz]
  simp only [View.ld_unit_zero (S := S512x3072) hz, View.ld_unit_zero (S := S1x3072) hz,
    View.ld_unit_zero (S := S3072x768) hz]
  funext y
  obtain ⟨p, q, rfl⟩ : ∃ (p : Fin 512) (q : Fin 768), y = ix2 p q := ⟨y 0, y 1, eq_ix2 y⟩
  have hN : cfg0.N = 32 := N_0
  have hlt : t.val * 512 + p.val < 16384 := by have := t.isLt; have := p.isLt; omega
  refine Eq.trans ?_ (read4_apply t (G A0 A1 A2 A3) p q ⟨t.val * 512 + p.val, hlt⟩ rfl).symm
  show k0_pay1 (F := Ideal) _ _ _ _ (ix2 p q) = _
  refine (Row.pay_apply _ _ _ _ p q).trans ?_
  unfold G
  exact congr (congr (congr (congrArg RowSpec.proj (funext fun k => read0_apply t A0 p k ⟨_, hlt⟩ rfl))
    (funext fun k => read1_apply t A1 k)) (funext fun k => read2_apply t A2 k)) (funext fun k => read3_apply t A3 k q)

/-- What point `t` writes back is block `t` of `G` of the arrays as the region finds them. -/
theorem flushed_eq (c : Dev nD) (t : Fin cfg0.N) :
    (dats m 0 c).flushed 4 t
      = ((cfg0.win 4).blk t).view.read (Elt Ideal) (G (V m c main_v3) (V m c main_v4) (V m c main_v5) (V m c main_v7)) := by
  show (cfg0.win 4).cut (grid0.coords t) ((dats m 0 c).after 4 t) = _
  rw [after0_4]
  exact flushed_gen t (V m c main_v3) (V m c main_v4) (V m c main_v5) (V m c main_v7)

/-! ## The output array after the run -/

/-- An index of the output array is in point `t`'s block iff each coordinate is in the block's range on its axis. -/
theorem mem_blk4 (t : Fin cfg0.N) (i : S16384x768.Idx) :
    i ∈ ((cfg0.win 4).blk t).view.set ↔ ∀ a : Fin 2, win0_4.index t a * S512x768.size a ≤ (i a).val
      ∧ (i a).val < win0_4.index t a * S512x768.size a + S512x768.size a := by
  show i ∈ ((View.whole main_v8).slice (win0_4.rect t)).set ↔ _
  rw [View.set_slice_whole, Rect.mem_set_unit]
  exact Iff.rfl

/-- Row `n` of the output lies in the block of point `n / 512`: the 32 row blocks tile the array, so after the run it
    holds `G` of the arrays the region read. -/
theorem final (c : Dev nD) :
    (dats m 0 c).arrAt 4 cfg0.N = G (V m c main_v3) (V m c main_v4) (V m c main_v5) (V m c main_v7) :=
  (dats m 0 c).arrAt_eq_of_cover 4 _ (fun t _ => flushed_eq m c t) fun i => by
    have hN : cfg0.N = 32 := N_0
    have hi0 : (i 0).val < 16384 := (i 0).isLt
    have hi1 : (i 1).val < 768 := (i 1).isLt
    obtain ⟨t, ht⟩ : ∃ t : Fin cfg0.N, t.val = (i 0).val / 512 := ⟨⟨(i 0).val / 512, by omega⟩, rfl⟩
    obtain ⟨-, -, -, -, -, -, -, -, e0, e1⟩ := idx_facts t
    refine ⟨t, flush0_4 t, ?_⟩
    rw [mem_blk4]
    intro a
    match a with
    | ⟨0, _⟩ =>
      show win0_4.index t (0 : Fin 2) * 512 ≤ (i 0).val ∧ (i 0).val < win0_4.index t (0 : Fin 2) * 512 + 512
      rw [e0, ht]; omega
    | ⟨1, _⟩ =>
      show win0_4.index t (1 : Fin 2) * 768 ≤ (i 1).val ∧ (i 1).val < win0_4.index t (1 : Fin 2) * 768 + 768
      rw [e1]; omega

end Cert.KernelIdeal.RowValue

end
-- ==== Proof.KernelRun.lean ====
/-
  The kernel program's run, read: its result buffer as one term of the four argument arrays.

  Before the region the host merges the input's 2×2×2 neighbourhoods into the last axis (a recast, a transpose and a
  recast: `merged`), folds the four leading axes into 16384 rows, lays the gain and bias vectors as single rows,
  and transposes the weight matrix (narrowing it to bf16, the identity at the ideal instance). After the region it
  recasts the 16384×768 output as a five-axis array. The region's output is the function `G` of what the host prepared.
-/
import proofs.«153583_j43490838840019_1_alg».proof.Proof.KernelValue

set_option maxRecDepth 16384

noncomputable section

open Idealize.ShloMosaic Idealize.ShloMosaic.TcCoe Idealize.SL.Sem
open Idealize.ShloMosaic.Pipeline (Dat)

namespace Cert.KernelIdeal.RowValue

open Cert.KernelIdeal Cert.KernelIdeal.Gen Idealize.ShloMosaic.ValueIdx

variable (m : (ℓ : Loc nD τ sig) → Buf (Elt Ideal) ℓ) (ρ : Dev nD → PrngReg)

/-- The input with each 2×2×2 neighbourhood merged into the last axis. -/
def merged (x : FVec Ideal S4x32x32x32x384 .f32) : FVec Ideal S4x16x16x16x3072 .f32 :=
  shapeCast S4x16x16x16x3072
    (transpose S4x16x16x16x2x2x2x384 [0, 1, 3, 5, 2, 4, 6, 7]
      (shapeCast S4x16x2x16x2x16x2x384 x shapeCasts_S4x32x32x32x384_S4x16x2x16x2x16x2x384)
      transposes_S4x16x2x16x2x16x2x384_S4x16x16x16x2x2x2x384_0_1_3_5_2_4_6_7)
    shapeCasts_S4x16x16x16x2x2x2x384_S4x16x16x16x3072

/-- The row array the region reads: the merged input with its four leading axes folded. -/
theorem V_rows (c : Dev nD) :
    (V m c main_v3 : FVec Ideal S16384x3072 .f32)
      = shapeCast S16384x3072 (merged (m ((c : Thread nD τ).loc main_arg0))) shapeCasts_S4x16x16x16x3072_S16384x3072 := by
  show StableHlo.after hostOps0 (fun b => m (c, b)) (Proc.devRef .tc main_v3) = _
  after_results
  rfl

/-- The gain row the region reads. -/
theorem V_gain (c : Dev nD) :
    (V m c main_v4 : FVec Ideal S1x3072 .f32)
      = shapeCast S1x3072 (m ((c : Thread nD τ).loc main_arg1) : FVec Ideal S3072 .f32) shapeCasts_S3072_S1x3072 := by
  show StableHlo.after hostOps0 (fun b => m (c, b)) (Proc.devRef .tc main_v4) = _
  after_results
  rfl

/-- The bias row the region reads. -/
theorem V_bias (c : Dev nD) :
    (V m c main_v5 : FVec Ideal S1x3072 .f32)
      = shapeCast S1x3072 (m ((c : Thread nD τ).loc main_arg2) : FVec Ideal S3072 .f32) shapeCasts_S3072_S1x3072 := by
  show StableHlo.after hostOps0 (fun b => m (c, b)) (Proc.devRef .tc main_v5) = _
  after_results
  rfl

/-- The weight array the region reads: the weight matrix transposed. -/
theorem V_weights (c : Dev nD) :
    (V m c main_v7 : FVec Ideal S3072x768 .bf16)
      = truncf (F := Ideal) .bf16 (transpose S3072x768 [1, 0] (m ((c : Thread nD τ).loc main_arg3) : FVec Ideal S768x3072 .f32)
          transposes_S768x3072_S3072x768_1_0) bitsLt_bf16_f32 := by
  show StableHlo.after hostOps0 (fun b => m (c, b)) (Proc.devRef .tc main_v7) = _
  after_results

/-- The host line after the region recasts the region's output array. -/
theorem tail_eq (c : Dev nD) :
    Pipeline.afterTail₀ cfgs (dats m) 0 (V0 m) [hostOps1] c main_v9
      = shapeCast S4x16x16x16x768 ((dats m 0 c).arrAt 4 cfg0.N : FVec Ideal S16384x768 .f32)
          shapeCasts_S16384x768_S4x16x16x16x768 := by
  unfold Pipeline.afterTail₀
  show StableHlo.after hostOps1 _ (Proc.devRef .tc main_v9) = _
  after_results
  funext i
  exact congrArg (fun A : FVec Ideal S16384x768 .f32 => shapeCast S4x16x16x16x768 A shapeCasts_S16384x768_S4x16x16x16x768 i)
    (Pipeline.withArrays_arr spec0 launch0.win.arr_inj c (V0 m c) (fun w => (dats m 0 c).arrAt w cfg0.N) 4)

/-- The kernel program's result as one term of the four argument arrays. -/
def result (x : FVec Ideal S4x32x32x32x384 .f32) (g b : FVec Ideal S3072 .f32) (w : FVec Ideal S768x3072 .f32) :
    FVec Ideal S4x16x16x16x768 .f32 :=
  shapeCast S4x16x16x16x768
    (G (shapeCast S16384x3072 (merged x) shapeCasts_S4x16x16x16x3072_S16384x3072)
      (shapeCast S1x3072 g shapeCasts_S3072_S1x3072) (shapeCast S1x3072 b shapeCasts_S3072_S1x3072)
      (truncf (F := Ideal) .bf16 (transpose S3072x768 [1, 0] w transposes_S768x3072_S3072x768_1_0) bitsLt_bf16_f32))
    shapeCasts_S16384x768_S4x16x16x16x768

/-- The result buffer after the run is `result` of the arguments as launched. -/
theorem tail_result (c : Dev nD) :
    Pipeline.afterTail₀ cfgs (dats m) 0 (V0 m) [hostOps1] c main_v9
      = result (m ((c : Thread nD τ).loc main_arg0)) (m ((c : Thread nD τ).loc main_arg1))
          (m ((c : Thread nD τ).loc main_arg2)) (m ((c : Thread nD τ).loc main_arg3)) := by
  rw [tail_eq, final, V_rows, V_gain, V_bias, V_weights]
  rfl

/-- Every weakly fair execution of the kernel program terminates with the result buffer at `result` of the arguments
    and the arguments unchanged. -/
theorem run : θ_run defs (onTc (τ := τ) (main (F := Ideal))) ⟨m, fun _ => 0, ρ⟩ fun r => ∀ c : Dev nD,
      r.2.mem ((c.tc : Thread nD τ).loc main_v9)
          = result (m ((c : Thread nD τ).loc main_arg0)) (m ((c : Thread nD τ).loc main_arg1))
              (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
      ⟨((h c).2 main_v9 (Pipeline.mem_restRefs_of main_v9 (by decide) (by decide))).trans (tail_result m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c),
       ((h c).2 main_arg3 (Pipeline.mem_restRefs_of main_arg3 (by decide) (by decide))).trans (W_main_arg3 m (dats m) c)⟩)
    (run_main m ρ)

end Cert.KernelIdeal.RowValue

end
-- ==== Proof.RefRow.lean ====
/-
  The reference program's result, entry by entry.

  The reference normalises the last axis of the merged five-axis array and contracts it with the weight matrix. At
  the ideal instance entry `(a, b, c, d, o)` of its result is the row function `RowSpec.proj` of the merged array's
  row `(a, b, c, d, ·)`, the gain vector, the bias vector and row `o` of the weight matrix: each reduction over the
  last axis is its initial value, zero, plus the sum over the 3072 positions, each keepdims broadcast reads position
  `(a, b, c, d)`, the gain and bias broadcasts read the last coordinate, and the contraction is the sum of products.
-/
import proofs.«153583_j43490838840019_1_alg».proof.Proof.Gen.ReferenceIdeal.Read
import proofs.«153583_j43490838840019_1_alg».proof.Proof.RowSpec

noncomputable section

open scoped BigOperators

namespace Cert.ReferenceIdeal.RowValue

open Cert.ReferenceIdeal Cert.ReferenceIdeal.Gen Cert.ReferenceIdeal.Read Idealize.ShloMosaic Idealize.ShloMosaic.ValueIdx

variable (a : Fin 4) (b c d : Fin 16)

/-! The generated index maps at explicit coordinates. -/

theorem e_v7 (k : Fin 3072) : idx_main_v7 (ix5 a b c d k) = ix5 a b c d (0 : Fin 1) :=
  funext fun x => Fin.ext (by match x with | ⟨0, _⟩ => rfl | ⟨1, _⟩ => rfl | ⟨2, _⟩ => rfl | ⟨3, _⟩ => rfl | ⟨4, _⟩ => rfl)
theorem e_v14 (k : Fin 3072) : idx_main_v14 (ix5 a b c d k) = ix5 a b c d (0 : Fin 1) :=
  funext fun x => Fin.ext (by match x with | ⟨0, _⟩ => rfl | ⟨1, _⟩ => rfl | ⟨2, _⟩ => rfl | ⟨3, _⟩ => rfl | ⟨4, _⟩ => rfl)
theorem e_v19 (k : Fin 3072) : idx_main_v19 (ix5 a b c d k) = ix5 a b c d (0 : Fin 1) :=
  funext fun x => Fin.ext (by match x with | ⟨0, _⟩ => rfl | ⟨1, _⟩ => rfl | ⟨2, _⟩ => rfl | ⟨3, _⟩ => rfl | ⟨4, _⟩ => rfl)
theorem e_v4 : idx_main_v4 (ix5 a b c d (0 : Fin 1)) = ix4 a b c d :=
  funext fun x => Fin.ext (by match x with | ⟨0, _⟩ => rfl | ⟨1, _⟩ => rfl | ⟨2, _⟩ => rfl | ⟨3, _⟩ => rfl)
theorem e_v11 : idx_main_v11 (ix5 a b c d (0 : Fin 1)) = ix4 a b c d :=
  funext fun x => Fin.ext (by match x with | ⟨0, _⟩ => rfl | ⟨1, _⟩ => rfl | ⟨2, _⟩ => rfl | ⟨3, _⟩ => rfl)
theorem e_v3 (k : Fin 3072) : idx_main_v3 (ix4 a b c d) k = ix5 a b c d k :=
  funext fun x => Fin.ext (by match x with | ⟨0, _⟩ => rfl | ⟨1, _⟩ => rfl | ⟨2, _⟩ => rfl | ⟨3, _⟩ => rfl | ⟨4, _⟩ => rfl)
theorem e_v10 (k : Fin 3072) : idx_main_v10 (ix4 a b c d) k = ix5 a b c d k :=
  funext fun x => Fin.ext (by match x with | ⟨0, _⟩ => rfl | ⟨1, _⟩ => rfl | ⟨2, _⟩ => rfl | ⟨3, _⟩ => rfl | ⟨4, _⟩ => rfl)
theorem e_v22 (k : Fin 3072) : idx_main_v21 (idx_main_v22 (ix5 a b c d k)) = ix1 k :=
  funext fun x => Fin.ext (by match x with | ⟨0, _⟩ => rfl)
theorem e_v25 (k : Fin 3072) : idx_main_v24 (idx_main_v25 (ix5 a b c d k)) = ix1 k :=
  funext fun x => Fin.ext (by match x with | ⟨0, _⟩ => rfl)
theorem e_l (o : Fin 768) (k : Fin 3072) : lidx_main_v27 (ix5 a b c d o) k = ix5 a b c d k :=
  funext fun x => Fin.ext (by match x with | ⟨0, _⟩ => rfl | ⟨1, _⟩ => rfl | ⟨2, _⟩ => rfl | ⟨3, _⟩ => rfl | ⟨4, _⟩ => rfl)
theorem e_r (o : Fin 768) (k : Fin 3072) : ridx_main_v27 (ix5 a b c d o) k = ix2 o k :=
  funext fun x => Fin.ext (by match x with | ⟨0, _⟩ => rfl | ⟨1, _⟩ => rfl)

/-- The mean of row `(a, b, c, d)` as the reference computes it. -/
theorem mean_apply (x0 : (⟨S4x32x32x32x384, .f32⟩ : BufTy).Contents (Elt Ideal)) :
    val_main_v6 (F := Ideal) x0 (ix5 a b c d (0 : Fin 1))
      = RowSpec.mean (fun k => val_main_v2 (F := Ideal) x0 (ix5 a b c d k)) := by
  rw [val_main_v6_apply, val_main_v4_apply, e_v4, val_main_v3_apply, val_main_v5_apply, val_main_cst_0_apply,
    val_main_cst_apply]
  simp only [e_v3, Ideal.ofBits_def, Ideal.ofBits_zero_f32, zero_add, Ideal.hostDivf_def]
  rfl

/-- The variance of row `(a, b, c, d)` as the reference computes it. -/
theorem var_apply (x0 : (⟨S4x32x32x32x384, .f32⟩ : BufTy).Contents (Elt Ideal)) :
    val_main_v13 (F := Ideal) x0 (ix5 a b c d (0 : Fin 1))
      = RowSpec.var (fun k => val_main_v2 (F := Ideal) x0 (ix5 a b c d k)) := by
  rw [val_main_v13_apply, val_main_v11_apply, e_v11, val_main_v10_apply, val_main_v12_apply, val_main_cst_2_apply,
    val_main_cst_1_apply]
  simp only [e_v10, val_main_v9_apply, val_main_v8_apply, val_main_v7_apply, e_v7, mean_apply, Ideal.ofBits_def,
    Ideal.ofBits_zero_f32, zero_add, Ideal.hostDivf_def, Ideal.mulf_def, Ideal.subf_def]
  rfl

/-- Entry `(a, b, c, d, o)` of the reference's result. -/
theorem ref_apply (x0 : (⟨S4x32x32x32x384, .f32⟩ : BufTy).Contents (Elt Ideal))
    (x1 x2 : (⟨S3072, .f32⟩ : BufTy).Contents (Elt Ideal)) (x3 : (⟨S768x3072, .f32⟩ : BufTy).Contents (Elt Ideal))
    (o : Fin 768) :
    val_main_v27 (F := Ideal) x0 x1 x2 x3 (ix5 a b c d o)
      = RowSpec.proj (fun k => val_main_v2 (F := Ideal) x0 (ix5 a b c d k)) (fun k => x1 (ix1 k)) (fun k => x2 (ix1 k))
          (fun k => x3 (ix2 o k)) := by
  rw [val_main_v27_apply]
  unfold RowSpec.proj
  refine Finset.sum_congr rfl fun k _ => ?_
  rw [e_l, e_r, val_main_v26_apply, val_main_v23_apply, val_main_v20_apply, val_main_v15_apply, val_main_v14_apply,
    e_v14, mean_apply, val_main_v19_apply, e_v19, val_main_v18_apply, val_main_v17_apply, var_apply, val_main_v16_apply,
    val_main_cst_3_apply, val_main_v22_apply, val_main_v21_apply, e_v22, val_main_v25_apply, val_main_v24_apply, e_v25]
  simp only [Ideal.ofBits_def, Ideal.hostUnary_rsqrt_def, Ideal.mulf_def, Ideal.subf_def, Ideal.addf_def]
  rfl

end Cert.ReferenceIdeal.RowValue

end
-- ==== Proof.LibFlattenLead4.lean ====
/-
  Four leading axes folded into one, read at an index.

  An `[a, b, c, d, e]` array recast as `[N, e]` with `N = a·b·c·d`, and an `[N, e]` array recast back: entry
  `(i₀, i₁, i₂, i₃, k)` of the one is entry `(n, k)` of the other exactly when `n = ((i₀·b + i₁)·c + i₂)·d + i₃`, since
  both then sit at the same row-major position `n·e + k`.
-/
import Idealize.ShloMosaic.Lib.Pipeline.Value
import Idealize.ShloMosaic.Lib.ValueIdx

noncomputable section

namespace Idealize.ShloMosaic.FlattenLead4

open Idealize.ShloMosaic Idealize.ShloMosaic.ValueIdx

variable {α : Type}

/-- The five-axis array viewed as rows: row `n`, column `k` is the entry at `(i₀, i₁, i₂, i₃, k)`. -/
theorem shapeCast_abcde_Ne_apply {a b c d e N : ℕ} (x : (⟨5, ![a, b, c, d, e]⟩ : Shape).Idx → α)
    (h : (⟨5, ![a, b, c, d, e]⟩ : Shape).ShapeCasts ⟨2, ![N, e]⟩)
    (i0 : Fin a) (i1 : Fin b) (i2 : Fin c) (i3 : Fin d) (k : Fin e) (n : Fin N)
    (hn : n.val = ((i0.val * b + i1.val) * c + i2.val) * d + i3.val) :
    shapeCast ⟨2, ![N, e]⟩ x h (ix2 n k) = x (ix5 i0 i1 i2 i3 k) :=
  shapeCast_apply x h _ _ (by
    rw [Shape.rowMajor_val_five, Shape.rowMajor_val_two]
    show (((i0.val * b + i1.val) * c + i2.val) * d + i3.val) * e + k.val = n.val * e + k.val
    rw [hn])

/-- The rows viewed as a five-axis array: the entry at `(i₀, i₁, i₂, i₃, k)` is row `n`, column `k`. -/
theorem shapeCast_Ne_abcde_apply {a b c d e N : ℕ} (y : (⟨2, ![N, e]⟩ : Shape).Idx → α)
    (h : (⟨2, ![N, e]⟩ : Shape).ShapeCasts ⟨5, ![a, b, c, d, e]⟩)
    (i0 : Fin a) (i1 : Fin b) (i2 : Fin c) (i3 : Fin d) (k : Fin e) (n : Fin N)
    (hn : n.val = ((i0.val * b + i1.val) * c + i2.val) * d + i3.val) :
    shapeCast ⟨5, ![a, b, c, d, e]⟩ y h (ix5 i0 i1 i2 i3 k) = y (ix2 n k) :=
  shapeCast_apply y h _ _ (by
    rw [Shape.rowMajor_val_five, Shape.rowMajor_val_two]
    show n.val * e + k.val = (((i0.val * b + i1.val) * c + i2.val) * d + i3.val) * e + k.val
    rw [hn])

end Idealize.ShloMosaic.FlattenLead4

end
-- ==== Proof.Bridge.lean ====
/-
  The two programs compute one function.

  Entry `(a, b, c, d, o)` of the kernel program's result is entry `(n, o)` of the region's output with
  `n = ((16 a + b) 16 + c) 16 + d`, which is the row function of row `n` of the folded merged input — that is, of the
  merged input's row `(a, b, c, d, ·)` —, of the gain and bias vectors laid as rows, and of column `o` of the transposed
  weight matrix — that is, of its row `o`. The reference's result at the same entry is the same row function of the same
  four rows, and the merged input is spelt by the same three host operations in both programs.
-/
import proofs.«153583_j43490838840019_1_alg».proof.Proof.KernelRun
import proofs.«153583_j43490838840019_1_alg».proof.Proof.RefRow
import proofs.«153583_j43490838840019_1_alg».proof.Proof.LibFlattenLead4
import Idealize.ShloMosaic.Lib.ValueLayout

noncomputable section

open scoped BigOperators

namespace Cert.Bridge

open Idealize.ShloMosaic Idealize.ShloMosaic.ValueIdx

/-- Entry `(a, b, c, d, o)` of the kernel program's result. -/
theorem kernel_apply (x : FVec Ideal Cert.KernelIdeal.S4x32x32x32x384 .f32) (g bb : FVec Ideal Cert.KernelIdeal.S3072 .f32)
    (w : FVec Ideal Cert.KernelIdeal.S768x3072 .f32) (a : Fin 4) (b c d : Fin 16) (o : Fin 768) :
    Cert.KernelIdeal.RowValue.result x g bb w (ix5 a b c d o)
      = RowSpec.proj (fun k => Cert.KernelIdeal.RowValue.merged x (ix5 a b c d k)) (fun k => g (ix1 k))
          (fun k => bb (ix1 k)) (fun k => w (ix2 o k)) := by
  have hn : ((a.val * 16 + b.val) * 16 + c.val) * 16 + d.val < 16384 := by
    have := a.isLt; have := b.isLt; have := c.isLt; have := d.isLt; omega
  unfold Cert.KernelIdeal.RowValue.result
  refine (FlattenLead4.shapeCast_Ne_abcde_apply _ _ a b c d o ⟨_, hn⟩ rfl).trans ?_
  unfold Cert.KernelIdeal.RowValue.G
  exact congr (congr (congr (congrArg RowSpec.proj
      (funext fun k => FlattenLead4.shapeCast_abcde_Ne_apply _ _ a b c d k ⟨_, hn⟩ rfl))
      (funext fun k => shapeCast_a_1a_apply g _ (0 : Fin 1) k))
      (funext fun k => shapeCast_a_1a_apply bb _ (0 : Fin 1) k))
      (funext fun k => transpose_ix2_apply w _ k o)

/-- The merged input is one term in both programs. -/
theorem merged_eq (x : FVec Ideal Cert.KernelIdeal.S4x32x32x32x384 .f32) :
    Cert.KernelIdeal.RowValue.merged x = Cert.ReferenceIdeal.Read.val_main_v2 (F := Ideal) x := rfl

/-- The two programs' results are one function of the arguments. -/
theorem result_eq (x : FVec Ideal Cert.KernelIdeal.S4x32x32x32x384 .f32) (g bb : FVec Ideal Cert.KernelIdeal.S3072 .f32)
    (w : FVec Ideal Cert.KernelIdeal.S768x3072 .f32) :
    Cert.ReferenceIdeal.Read.val_main_v27 (F := Ideal) x g bb w = Cert.KernelIdeal.RowValue.result x g bb w := by
  funext i
  obtain ⟨a, b, c, d, o, rfl⟩ : ∃ (a : Fin 4) (b c d : Fin 16) (o : Fin 768), i = ix5 a b c d o :=
    ⟨i 0, i 1, i 2, i 3, i 4, eq_ix5 i⟩
  rw [kernel_apply, merged_eq]
  exact Cert.ReferenceIdeal.RowValue.ref_apply a b c d x g bb w o

end Cert.Bridge

end
-- ==== Proof.lean ====
/-
  The certificate of a patch-merging layer: a kernel that normalises 16384 rows of 3072 entries, 512 rows per grid point,
  and multiplies them by a 3072×768 weight block, against a reference that normalises the last axis of the same merged
  array and contracts it with the weight matrix.

  Both programs first merge each 2×2×2 neighbourhood of the input into the last axis by the same three host operations.
  The kernel folds the four leading axes into rows, the reference keeps them; the kernel averages by lane sums kept as
  columns, the reference by host reductions broadcast back; the kernel multiplies by the transposed weight matrix
  narrowed to bf16, the reference contracts with the matrix itself. On the extended reals every one of these is the
  same row function (`RowSpec.proj`): the mean and variance are the same quotients of the same sums by the same float,
  the narrowing is the identity, and entry `(k, o)` of the transpose is entry `(o, k)` of the matrix. No step moves a
  factor across a sum, so the inputs' finiteness is never used.

  The kernel's frames are the generated ones; the reference's frame is its generated run with the result dropped; the
  idealization rewrote nothing, so it preserves the kernel trivially.
-/
import proofs.«153583_j43490838840019_1_alg».proof.Defs
import proofs.«153583_j43490838840019_1_alg».proof.Proof.Gen.Kernel
import proofs.«153583_j43490838840019_1_alg».proof.Proof.Gen.Kernel.Skeleton
import proofs.«153583_j43490838840019_1_alg».proof.Proof.Gen.Kernel.Launch
import proofs.«153583_j43490838840019_1_alg».proof.Proof.Gen.Kernel.Points
import proofs.«153583_j43490838840019_1_alg».proof.Proof.Gen.Kernel.Frame
import proofs.«153583_j43490838840019_1_alg».proof.Proof.Gen.KernelIdeal
import proofs.«153583_j43490838840019_1_alg».proof.Proof.Gen.KernelIdeal.Skeleton
import proofs.«153583_j43490838840019_1_alg».proof.Proof.Gen.KernelIdeal.Launch
import proofs.«153583_j43490838840019_1_alg».proof.Proof.Gen.KernelIdeal.Points
import proofs.«153583_j43490838840019_1_alg».proof.Proof.Gen.KernelIdeal.Frame
import proofs.«153583_j43490838840019_1_alg».proof.Proof.Gen.ReferenceIdeal
import proofs.«153583_j43490838840019_1_alg».proof.Proof.Gen.Pre_finite_inputs
import proofs.«153583_j43490838840019_1_alg».proof.Proof.Gen.ReferenceIdeal.Run
import proofs.«153583_j43490838840019_1_alg».proof.Proof.Gen.ReferenceIdeal.Read
import proofs.«153583_j43490838840019_1_alg».proof.Proof.KernelRun
import proofs.«153583_j43490838840019_1_alg».proof.Proof.Bridge
import Idealize.ShloMosaic.Adequacy
import Idealize.ShloMosaic.Init

noncomputable section

namespace Cert.Proof

open Idealize.ShloMosaic Idealize.ShloMosaic.TcCoe Idealize.SL.Sem

/-- The kernel as printed runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments the two idealized programs end with the same result: the kernel's run
    ends at its result term of the arguments, the reference's at its own, and the two terms are one function. -/
theorem algebraic : Cert.algebraic_KernelIdeal_ReferenceIdeal := by
  intro m ρ m' ρ' _ hagree
  refine ⟨fun c => Cert.KernelIdeal.RowValue.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.RowValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v27_eq, (hagree c).1, (hagree c).2.1, (hagree c).2.2.1, (hagree c).2.2.2]
  exact Cert.Bridge.result_eq _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
